-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x512x512 : Shape := ⟨4, ![16, 64, 512, 512]⟩
abbrev S_ : Shape := ⟨0, ![]⟩

class Facts : Prop where
  bcast_S_S16x64x512x512 : S_.BroadcastsInDim S16x64x512x512 (![] : Fin 0 → Fin S16x64x512x512.rank)
  reducesTo_S16x64x512x512_S_d0_1_2_3 : S16x64x512x512.ReducesTo [0, 1, 2, 3] S_
  h_S_ : 0 < S_.numel

variable [Facts]

def fn {F : FTy → Type} [FloatOps F] (main_arg0 : FVec F S16x64x512x512 .f32) : IVec S_ 1 :=
  let main_v0 : FVec F S16x64x512x512 .f32 := Host.absf main_arg0
  let main_cst : FVec F S_ .f32 := constant S_ .f32 0x7F800000#32
  let main_v1 : FVec F S16x64x512x512 .f32 := broadcastInDim S16x64x512x512 ![] bcast_S_S16x64x512x512 main_cst
  let main_v2 : IVec S16x64x512x512 1 := cmpf .olt main_v0 main_v1
  let main_c : IVec S_ 1 := constantI S_ 1 1#1
  let main_v3 : IVec S_ 1 := (fun x v => Host.reduce IntOp.andi x v reducesTo_S16x64x512x512_S_d0_1_2_3 h_S_) main_v2 main_c
  main_v3
-- ==== Kernel.lean ====
abbrev S16x64x512x512 : Shape := ⟨4, ![16, 64, 512, 512]⟩
abbrev S1024x512x512 : Shape := ⟨3, ![1024, 512, 512]⟩
abbrev S1024x256x256 : Shape := ⟨3, ![1024, 256, 256]⟩
abbrev S4x512x512 : Shape := ⟨3, ![4, 512, 512]⟩
abbrev S4x256x256 : Shape := ⟨3, ![4, 256, 256]⟩
abbrev S4x256x2x512 : Shape := ⟨4, ![4, 256, 2, 512]⟩
abbrev S4x256x512 : Shape := ⟨3, ![4, 256, 512]⟩
abbrev S4x512x256 : Shape := ⟨3, ![4, 512, 256]⟩
abbrev S4x256x2x256 : Shape := ⟨4, ![4, 256, 2, 256]⟩
abbrev S16x64x256x256 : Shape := ⟨4, ![16, 64, 256, 256]⟩

abbrev nBuf : Space → Nat
  | .hbm => 4
  | .vmem => 4
  | .smem => 0
  | _ => 0

abbrev bufTy : (tb : Table) → Fin (tcTables nBuf tb) → BufTy
  | .hbm, ⟨0, _⟩ => ⟨S16x64x512x512, .f32⟩
  | .hbm, ⟨1, _⟩ => ⟨S1024x512x512, .f32⟩
  | .hbm, ⟨2, _⟩ => ⟨S1024x256x256, .f32⟩
  | .hbm, ⟨3, _⟩ => ⟨S16x64x256x256, .f32⟩
  | .local _ .vmem, ⟨0, _⟩ => ⟨S4x512x512, .f32⟩
  | .local _ .vmem, ⟨1, _⟩ => ⟨S4x512x512, .f32⟩
  | .local _ .vmem, ⟨2, _⟩ => ⟨S4x256x256, .f32⟩
  | .local _ .vmem, ⟨3, _⟩ => ⟨S4x256x256, .f32⟩
  | _, _ => ⟨S16x64x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S16x64x512x512_S1024x512x512 : S16x64x512x512.ShapeCasts S1024x512x512
  inb_S4x512x512_S4x512x512_0_0_0 : ∀ a, (![0, 0, 0] : Fin 3 → Nat) a + S4x512x512.size a ≤ S4x512x512.size a
  h_S4x512x512 : 0 < S4x512x512.numel
  shapeCasts_S4x512x512_S4x512x512 : S4x512x512.ShapeCasts S4x512x512
  shapeCasts_S4x512x512_S4x256x2x512 : S4x512x512.ShapeCasts S4x256x2x512
  reduces_S4x256x2x512_S4x256x512 : S4x256x2x512.Reduces [2] S4x256x512
  transposes_S4x256x512_p0_2_1_S4x512x256 : S4x256x512.Transposes [0, 2, 1] S4x512x256
  shapeCasts_S4x512x256_S4x256x2x256 : S4x512x256.ShapeCasts S4x256x2x256
  reduces_S4x256x2x256_S4x256x256 : S4x256x2x256.Reduces [2] S4x256x256
  transposes_S4x256x256_p0_2_1_S4x256x256 : S4x256x256.Transposes [0, 2, 1] S4x256x256
  inb_S4x256x256_S4x256x256_0_0_0 : ∀ a, (![0, 0, 0] : Fin 3 → Nat) a + S4x256x256.size a ≤ S4x256x256.size a
  h_S4x256x256 : 0 < S4x256x256.numel
  shapeCasts_S1024x256x256_S16x64x256x256 : S1024x256x256.ShapeCasts S16x64x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x512.size a ≤ S1024x512x512.size a
  hwx0_0 : ∀ i : grid0.Coords, EltTy.bits .f32 = 32 ∨ (Rect.block (s := S1024x512x512) S4x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x256x256.size a ≤ S1024x256x256.size a
  hwx0_1 : ∀ i : grid0.Coords, EltTy.bits .f32 = 32 ∨ (Rect.block (s := S1024x256x256) S4x256x256.size (cc0_transform_1 i) (hinb0_1 i)).WholeWords (EltTy.packing .f32)

variable [Facts₀]

abbrev win0_0 : Pipeline.Window sig grid0 :=
  Pipeline.Window.ofSpec (Memref.whole main_v0) S4x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x256x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x64x512x512 : Shape := ⟨4, ![16, 64, 512, 512]⟩
abbrev S_ : Shape := ⟨0, ![]⟩
abbrev S16x64x256x256 : Shape := ⟨4, ![16, 64, 256, 256]⟩

abbrev nBuf : Space → Nat
  | .hbm => 4
  | .vmem => 0
  | .smem => 0
  | _ => 0

abbrev bufTy : (tb : Table) → Fin (tcTables nBuf tb) → BufTy
  | .hbm, ⟨0, _⟩ => ⟨S16x64x512x512, .f32⟩
  | .hbm, ⟨1, _⟩ => ⟨S_, .f32⟩
  | .hbm, ⟨2, _⟩ => ⟨S_, .f32⟩
  | .hbm, ⟨3, _⟩ => ⟨S16x64x256x256, .f32⟩
  | _, _ => ⟨S16x64x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  bcast_S_S_ : S_.BroadcastsInDim S_ (![] : Fin 0 → Fin S_.rank)
  reduceWindows_S16x64x512x512_S16x64x256x256_w1s1p0_0_w1s1p0_0_w2s2p0_0_w2s2p0_0 : S16x64x512x512.ReduceWindows (![1, 1, 2, 2] : Fin 4 → Nat) ![1, 1, 2, 2] ![0, 0, 0, 0] ![0, 0, 0, 0] S16x64x256x256
  h_S_ : 0 < S_.numel

variable [Facts₀]

class Facts : Prop extends Facts₀ where

variable [Facts]
-- ==== Proof.PoolSpec.lean ====
/-
  Two-by-two max pooling with stride two, as one function of the input array, index by index.

  On the extended reals the maximum is associative and commutative and `⊥` (the value of the
  f32 pattern of minus infinity) is its identity, so the pooled value of a window does not depend on
  the order its four entries are visited in, nor on whether the fold starts from `⊥`. The function is
  written twice: over the array with its two leading axes merged (`pool3`, [1024, 512, 512] to
  [1024, 256, 256]) and over the four-axis array (`pool4`, [16, 64, 512, 512] to [16, 64, 256, 256]);
  `pool4_eq` says that merging the leading axes, pooling, and splitting them again is `pool4`.
-/
import Idealize.ShloMosaic.PureOps.Ideal
import Idealize.ShloMosaic.Lib.ValueIdx
import Idealize.ShloMosaic.Lib.Pipeline.Value

noncomputable section

namespace Cert.PoolSpec

open Idealize.ShloMosaic Idealize.ShloMosaic.ValueIdx

/-- Entry `2 h + d` of an axis of extent 512: the `d`-th entry of the `h`-th window. -/
def dbl (h : Fin 256) (d : Fin 2) : Fin 512 := ⟨2 * h.val + d.val, by omega⟩

theorem dbl_val (h : Fin 256) (d : Fin 2) : (dbl h d).val = 2 * h.val + d.val := rfl

/-- The f32 pattern of minus infinity is the bottom of the extended reals. -/
theorem ofBits_neg_inf : Ideal.ofBits .f32 0xFF800000#32 = (⊥ : EReal) := by
  simp [Ideal.ofBits, Ideal.ieee]

/-- A fold of `max` from `⊥` over the two entries of an axis of extent two is the larger of the two. -/
theorem fold_max_two (f : Fin 2 → EReal) :
    (Finset.univ : Finset (Fin 2)).fold max (⊥ : EReal) f = max (f 0) (f 1) := by
  rw [show (Finset.univ : Finset (Fin 2)) = insert 0 {1} from by decide,
    Finset.fold_insert (by decide), Finset.fold_singleton, max_eq_left (bot_le : (⊥ : EReal) ≤ f 1)]

/-- Pooling with the leading axes merged: the larger, over the two columns of the window, of the larger of
    the window's two rows. -/
def pool3 (x : (⟨3, ![1024, 512, 512]⟩ : Shape).Idx → EReal) : (⟨3, ![1024, 256, 256]⟩ : Shape).Idx → EReal :=
  fun j =>
    max (max (x (ix3 (j 0) (dbl (j 1) 0) (dbl (j 2) 0))) (x (ix3 (j 0) (dbl (j 1) 1) (dbl (j 2) 0))))
        (max (x (ix3 (j 0) (dbl (j 1) 0) (dbl (j 2) 1))) (x (ix3 (j 0) (dbl (j 1) 1) (dbl (j 2) 1))))

/-- Pooling of the four-axis array, the same arrangement. -/
def pool4 (x : (⟨4, ![16, 64, 512, 512]⟩ : Shape).Idx → EReal) : (⟨4, ![16, 64, 256, 256]⟩ : Shape).Idx → EReal :=
  fun j =>
    max (max (x (ix4 (j 0) (j 1) (dbl (j 2) 0) (dbl (j 3) 0))) (x (ix4 (j 0) (j 1) (dbl (j 2) 1) (dbl (j 3) 0))))
        (max (x (ix4 (j 0) (j 1) (dbl (j 2) 0) (dbl (j 3) 1))) (x (ix4 (j 0) (j 1) (dbl (j 2) 1) (dbl (j 3) 1))))

/-- Image `n` of the batch and channel `c`, as a row of the merged leading axis. -/
def merged (n : Fin 16) (c : Fin 64) : Fin 1024 := ⟨n.val * 64 + c.val, by omega⟩

/-- The merged array read at (image·64 + channel, row, column) is the four-axis array at (image, channel, row, column). -/
theorem merge_apply (x : (⟨4, ![16, 64, 512, 512]⟩ : Shape).Idx → EReal)
    (h : (⟨4, ![16, 64, 512, 512]⟩ : Shape).ShapeCasts ⟨3, ![1024, 512, 512]⟩)
    (n : Fin 16) (c : Fin 64) (r s : Fin 512) :
    shapeCast ⟨3, ![1024, 512, 512]⟩ x h (ix3 (merged n c) r s) = x (ix4 n c r s) := by
  refine shapeCast_apply x h _ _ ?_
  rw [Shape.rowMajor_val_four, Shape.rowMajor_val_three]
  show ((n.val * 64 + c.val) * 512 + r.val) * 512 + s.val = ((n.val * 64 + c.val) * 512 + r.val) * 512 + s.val
  rfl

/-- Merging the two leading axes, pooling, and splitting them again is the pooling of the four-axis array. -/
theorem pool4_eq (x : (⟨4, ![16, 64, 512, 512]⟩ : Shape).Idx → EReal)
    (h : (⟨4, ![16, 64, 512, 512]⟩ : Shape).ShapeCasts ⟨3, ![1024, 512, 512]⟩)
    (h' : (⟨3, ![1024, 256, 256]⟩ : Shape).ShapeCasts ⟨4, ![16, 64, 256, 256]⟩) :
    shapeCast ⟨4, ![16, 64, 256, 256]⟩ (pool3 (shapeCast ⟨3, ![1024, 512, 512]⟩ x h)) h' = pool4 x := by
  funext j
  obtain ⟨n, c, p, q, rfl⟩ : ∃ (n : Fin 16) (c : Fin 64) (p q : Fin 256), j = ix4 n c p q :=
    ⟨j 0, j 1, j 2, j 3, eq_ix4 j⟩
  rw [shapeCast_apply (pool3 (shapeCast ⟨3, ![1024, 512, 512]⟩ x h)) h' (ix4 n c p q) (ix3 (merged n c) p q) (by
    rw [Shape.rowMajor_val_four, Shape.rowMajor_val_three]
    show ((n.val * 64 + c.val) * 256 + p.val) * 256 + q.val = ((n.val * 64 + c.val) * 256 + p.val) * 256 + q.val
    rfl)]
  show max (max (shapeCast _ x h (ix3 (merged n c) (dbl p 0) (dbl q 0))) (shapeCast _ x h (ix3 (merged n c) (dbl p 1) (dbl q 0))))
        (max (shapeCast _ x h (ix3 (merged n c) (dbl p 0) (dbl q 1))) (shapeCast _ x h (ix3 (merged n c) (dbl p 1) (dbl q 1)))) = _
  rw [merge_apply, merge_apply, merge_apply, merge_apply]
  rfl

end Cert.PoolSpec

end
-- ==== Proof.PoolStage.lean ====
/-
  One pooling stage of the body, read at an index.

  The body pools an axis of extent 512 in two steps: it splits the axis into 256 pairs (a reshape
  [4, 512, n] to [4, 256, 2, n]; row `r` becomes pair `r / 2`, entry `r % 2`) and takes the maximum over the
  axis of extent two, from minus infinity. At (b, p, w) the result is the larger of the operand's entries
  (b, 2 p, w) and (b, 2 p + 1, w). Stated for any trailing extent `n`: the body uses it at 512 (rows) and,
  between two transpositions, at 256 (columns).
-/
import Idealize.ShloMosaic.PureOps.Ideal.Laws
import proofs.«419544_j5909875000105_4_alg».proof.Proof.PoolSpec

noncomputable section

namespace Cert.PoolSpec

open Idealize.ShloMosaic Idealize.ShloMosaic.ValueIdx

/-- Splitting the middle axis into pairs: the split array at (b, p, d, w) is the operand at (b, 2 p + d, w). -/
theorem split_apply {n : Nat} (v : (⟨3, ![4, 512, n]⟩ : Shape).Idx → EReal)
    (h : (⟨3, ![4, 512, n]⟩ : Shape).ShapeCasts ⟨4, ![4, 256, 2, n]⟩)
    (b : Fin 4) (p : Fin 256) (d : Fin 2) (w : Fin n) :
    shapeCast ⟨4, ![4, 256, 2, n]⟩ v h (ix4 b p d w) = v (ix3 b (dbl p d) w) := by
  refine shapeCast_apply v h _ _ ?_
  rw [Shape.rowMajor_val_four, Shape.rowMajor_val_three]
  show (b.val * 512 + (2 * p.val + d.val)) * n + w.val = ((b.val * 256 + p.val) * 2 + d.val) * n + w.val
  have e : b.val * 512 + (2 * p.val + d.val) = (b.val * 256 + p.val) * 2 + d.val := by omega
  rw [e]

/-- The maximum over the pairs: at (b, p, w), the larger of the operand's two entries of pair `p`. -/
theorem pairmax_apply {n : Nat} (v : FVec Ideal ⟨3, ![4, 512, n]⟩ .f32)
    (h : (⟨3, ![4, 512, n]⟩ : Shape).ShapeCasts ⟨4, ![4, 256, 2, n]⟩)
    (hr : (⟨4, ![4, 256, 2, n]⟩ : Shape).Reduces [2] ⟨3, ![4, 256, n]⟩)
    (hφ : FKind.Formats .f32) (hacc : (0xFF800000#32 : BitVec 32) = FKind.maximumf.neutral .f32 hφ)
    (b : Fin 4) (p : Fin 256) (w : Fin n) :
    multiReduction .maximumf [2] ⟨3, ![4, 256, n]⟩ (shapeCast ⟨4, ![4, 256, 2, n]⟩ v h) 0xFF800000#32 hr hφ hacc (ix3 b p w)
      = max (v (ix3 b (dbl p 0) w)) (v (ix3 b (dbl p 1) w)) := by
  rw [Ideal.multiReduction_maximumf_single, Ideal.ofBits_def, ofBits_neg_inf]
  refine (fold_max_two _).trans ?_
  have e0 : hr.lift (ix3 b p w) (0 : Fin 2) = ix4 b p (0 : Fin 2) w := by
    funext a; apply Fin.ext
    match a with
    | ⟨0, _⟩ => rfl
    | ⟨1, _⟩ => rfl
    | ⟨2, _⟩ => rfl
    | ⟨3, _⟩ => rfl
  have e1 : hr.lift (ix3 b p w) (1 : Fin 2) = ix4 b p (1 : Fin 2) w := by
    funext a; apply Fin.ext
    match a with
    | ⟨0, _⟩ => rfl
    | ⟨1, _⟩ => rfl
    | ⟨2, _⟩ => rfl
    | ⟨3, _⟩ => rfl
  show max (shapeCast _ v h (hr.lift (ix3 b p w) (0 : Fin 2))) (shapeCast _ v h (hr.lift (ix3 b p w) (1 : Fin 2))) = _
  rw [e0, e1, split_apply, split_apply]

end Cert.PoolSpec

end
-- ==== Proof.KernelPay.lean ====
/-
  What the body stores, at an index of its output block.

  The body pools the rows of its [4, 512, 512] block in pairs, transposes the two trailing axes so that the columns
  become the middle axis, pools those in pairs the same way, and transposes back. At (b, p, q) the stored value is
  therefore the larger, over the two columns 2 q and 2 q + 1, of the larger of the rows 2 p and 2 p + 1: the pooled value
  of the 2 x 2 window at (p, q) of slice b.
-/
import proofs.«419544_j5909875000105_4_alg».proof.Proof.Gen.KernelIdeal.Skeleton
import proofs.«419544_j5909875000105_4_alg».proof.Proof.PoolStage
import Idealize.ShloMosaic.Lib.Pipeline.Value

noncomputable section

namespace Cert.KernelPool

open Idealize.ShloMosaic Idealize.ShloMosaic.ValueIdx Cert.PoolSpec Cert.KernelIdeal Cert.KernelIdeal.Gen

/-- Swapping the two trailing axes: the swapped array at (b, r, s) is the operand at (b, s, r). -/
theorem swap_apply {n k : Nat} (v : (⟨3, ![4, n, k]⟩ : Shape).Idx → EReal)
    (h : (⟨3, ![4, n, k]⟩ : Shape).Transposes [0, 2, 1] ⟨3, ![4, k, n]⟩) (b : Fin 4) (r : Fin k) (s : Fin n) :
    transpose ⟨3, ![4, k, n]⟩ [0, 2, 1] v h (ix3 b r s) = v (ix3 b s r) :=
  transpose_apply [0, 2, 1] v h (ix3 b r s) (ix3 b s r) (fun a => by
    match a with
    | ⟨0, _⟩ => rfl
    | ⟨1, _⟩ => rfl
    | ⟨2, _⟩ => rfl)

/-- The row-pooled block with its trailing axes swapped, at (b, column, p): the larger of rows 2 p and 2 p + 1 of that
    column. -/
theorem rows_apply (x0 : Vec Ideal S4x512x512 .f32) (hφ : FKind.Formats .f32)
    (hacc : (0xFF800000#32 : BitVec 32) = FKind.maximumf.neutral .f32 hφ) (b : Fin 4) (p : Fin 256) (w : Fin 512) :
    transpose S4x512x256 [0, 2, 1]
        (multiReduction (F := Ideal) .maximumf [2] S4x256x512
          (shapeCast S4x256x2x512 (shapeCast S4x512x512 x0 shapeCasts_S4x512x512_S4x512x512) shapeCasts_S4x512x512_S4x256x2x512)
          0xFF800000#32 reduces_S4x256x2x512_S4x256x512 hφ hacc)
        transposes_S4x256x512_p0_2_1_S4x512x256 (ix3 b w p)
      = max (x0 (ix3 b (dbl p 0) w)) (x0 (ix3 b (dbl p 1) w)) := by
  refine (swap_apply (n := 256) (k := 512) _ transposes_S4x256x512_p0_2_1_S4x512x256 b w p).trans ?_
  refine (pairmax_apply (n := 512) _ shapeCasts_S4x512x512_S4x256x2x512 reduces_S4x256x2x512_S4x256x512 hφ hacc b p w).trans ?_
  rw [shapeCast_self]

/-- The stored value at (b, p, q), from the loaded block. -/
theorem pay_apply (x0 : Vec Ideal S4x512x512 .f32) (b : Fin 4) (p q : Fin 256) :
    k0_pay1 (F := Ideal) x0 (ix3 b p q)
      = max (max (x0 (ix3 b (dbl p 0) (dbl q 0))) (x0 (ix3 b (dbl p 1) (dbl q 0))))
            (max (x0 (ix3 b (dbl p 0) (dbl q 1))) (x0 (ix3 b (dbl p 1) (dbl q 1)))) := by
  unfold k0_pay1
  dsimp only
  refine (swap_apply (n := 256) (k := 256) _ transposes_S4x256x256_p0_2_1_S4x256x256 b p q).trans ?_
  refine (pairmax_apply (n := 256) _ shapeCasts_S4x512x256_S4x256x2x256 reduces_S4x256x2x256_S4x256x256 _ _ b q p).trans ?_
  exact congrArg₂ max (rows_apply x0 _ _ b p (dbl q 0)) (rows_apply x0 _ _ b p (dbl q 1))

end Cert.KernelPool

end
-- ==== Proof.KernelValue.lean ====
/-
  The kernel's result array, as one function of its argument.

  Before the region the argument's two leading axes are merged ([16, 64, 512, 512] to [1024, 512, 512]). Grid point `t`
  works on the four consecutive slices 4 t, …, 4 t + 3: it reads that block of the merged array and writes the same block
  of the [1024, 256, 256] output, and what it writes at (b, p, q) is the pooled value of the window at (p, q) of slice
  4 t + b. The 256 blocks tile the output, so after the region the output array is `pool3` of the merged argument; the
  reshape after the region splits the leading axis again, which gives `pool4` of the argument.
-/
import proofs.«419544_j5909875000105_4_alg».proof.Proof.Gen.KernelIdeal.Frame
import proofs.«419544_j5909875000105_4_alg».proof.Proof.KernelPay
import Idealize.ShloMosaic.Lib.Pipeline.Value
import Idealize.ShloMosaic.Lib.StableHlo.Run

set_option maxRecDepth 16384

noncomputable section

namespace Cert.KernelPool

open Idealize.ShloMosaic Idealize.ShloMosaic.TcCoe Idealize.SL.Sem Idealize.ShloMosaic.ValueIdx
open Cert.PoolSpec Cert.KernelIdeal Cert.KernelIdeal.Gen
open Idealize.ShloMosaic.Pipeline (Dat)

variable (m : (ℓ : Loc nD τ sig) → Buf (Elt Ideal) ℓ) (ρ : Dev nD → PrngReg)

/-- The region finds the merged argument in its input array. -/
theorem V_main_v0 (c : Dev nD) :
    (V m c main_v0 : S1024x512x512.Idx → EReal)
      = shapeCast S1024x512x512 (m ((c : Thread nD τ).loc main_arg0)) shapeCasts_S16x64x512x512_S1024x512x512 := by
  show StableHlo.after hostOps0 (fun b => m (c, b)) (Proc.devRef .tc main_v0) = _
  after_results
  rfl

theorem hz3 : (![0, 0, 0] : Fin 3 → Nat) = fun _ => 0 := funext fun a => by fin_cases a <;> rfl

/-- The printed index maps, decided over the grid: both windows' block index at point `t` is (t, 0, 0). -/
theorem idx_facts : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- The input block of point `t` at (b, 2 p + d, 2 q + e) is the merged array at slice 4 t + b, the same row and column:
    written over the coordinates of the output block's index (b, p, q) inside the output array. -/
theorem blk_read (c : Dev nD) (t : Fin cfg0.N) (b : Fin 4) (p q : Fin 256) (d e : Fin 2) :
    iblk m c 0 t (ix3 b (dbl p d) (dbl q e))
      = (V m c main_v0 : S1024x512x512.Idx → EReal)
          (ix3 ((((cfg0.win 1).blk t).view.emb (ix3 b p q)) 0) (dbl ((((cfg0.win 1).blk t).view.emb (ix3 b p q)) 1) d)
            (dbl ((((cfg0.win 1).blk t).view.emb (ix3 b p q)) 2) e)) := by
  obtain ⟨e0, e1, e2, e3, e4, e5⟩ := idx_facts t
  show (V m c main_v0 : S1024x512x512.Idx → EReal) (((cfg0.win 0).blk t).view.emb (ix3 b (dbl p d) (dbl q e))) = _
  refine congrArg _ (funext fun a => Fin.ext ?_)
  match a with
  | ⟨0, _⟩ =>
    show win0_0.index t (0 : Fin 3) * 4 + 1 * b.val = win0_1.index t (0 : Fin 3) * 4 + 1 * b.val
    omega
  | ⟨1, _⟩ =>
    show win0_0.index t (1 : Fin 3) * 512 + 1 * (2 * p.val + d.val) = 2 * (win0_1.index t (1 : Fin 3) * 256 + 1 * p.val) + d.val
    omega
  | ⟨2, _⟩ =>
    show win0_0.index t (2 : Fin 3) * 512 + 1 * (2 * q.val + e.val) = 2 * (win0_1.index t (2 : Fin 3) * 256 + 1 * q.val) + e.val
    omega

/-- What point `t` writes back is block `t` of the pooled merged array. -/
theorem flushed_eq (c : Dev nD) (t : Fin cfg0.N) :
    (dats m 0 c).flushed 1 t = ((cfg0.win 1).blk t).view.read (Elt Ideal) (pool3 (V m c main_v0)) := by
  show (cfg0.win 1).cut (grid0.coords t) ((dats m 0 c).after 1 t) = _
  rw [after0_1]
  unfold out0_1
  rw [View.canon_unit_zero hz3]
  simp only [View.ld_unit_zero (S := S4x512x512) hz3]
  funext j
  obtain ⟨b, p, q, rfl⟩ : ∃ (b : Fin 4) (p q : Fin 256), j = ix3 b p q := ⟨j 0, j 1, j 2, eq_ix3 j⟩
  show k0_pay1 (F := Ideal) (iblk m c 0 t) (ix3 b p q) = pool3 (V m c main_v0) (((cfg0.win 1).blk t).view.emb (ix3 b p q))
  refine (pay_apply _ b p q).trans ?_
  unfold pool3
  rw [blk_read m c t b p q 0 0, blk_read m c t b p q 1 0, blk_read m c t b p q 0 1, blk_read m c t b p q 1 1]

/-- An index of the output array is in point `t`'s block iff each coordinate is in the block's range on its axis. -/
theorem mem_blk (t : Fin cfg0.N) (i : S1024x256x256.Idx) :
    i ∈ ((cfg0.win 1).blk t).view.set ↔ ∀ a : Fin 3, win0_1.index t a * S4x256x256.size a ≤ (i a).val
      ∧ (i a).val < win0_1.index t a * S4x256x256.size a + S4x256x256.size a := by
  show i ∈ ((View.whole main_v1).slice (win0_1.rect t)).set ↔ _
  rw [View.set_slice_whole, Rect.mem_set_unit]
  exact Iff.rfl

/-- The blocks tile the output: slice `s` lies in the block of point `s / 4`. -/
theorem cover (i : S1024x256x256.Idx) :
    ∃ t : Fin cfg0.N, (cfg0.win 1).flush t = true ∧ i ∈ ((cfg0.win 1).blk t).view.set := by
  have hi0 : (i 0).val < 1024 := (i 0).isLt
  have hi1 : (i 1).val < 256 := (i 1).isLt
  have hi2 : (i 2).val < 256 := (i 2).isLt
  have hN : (i 0).val / 4 < cfg0.N := by show (i 0).val / 4 < grid0.N; rw [N_0]; omega
  obtain ⟨-, -, -, e3, e4, e5⟩ := idx_facts ⟨(i 0).val / 4, hN⟩
  refine ⟨⟨(i 0).val / 4, hN⟩, flush0_1 _, ?_⟩
  rw [mem_blk]
  intro a
  match a with
  | ⟨0, _⟩ =>
    show win0_1.index ⟨(i 0).val / 4, hN⟩ (0 : Fin 3) * 4 ≤ (i 0).val ∧ (i 0).val < win0_1.index ⟨(i 0).val / 4, hN⟩ (0 : Fin 3) * 4 + 4
    rw [e3]
    show (i 0).val / 4 * 4 ≤ (i 0).val ∧ (i 0).val < (i 0).val / 4 * 4 + 4
    omega
  | ⟨1, _⟩ =>
    show win0_1.index ⟨(i 0).val / 4, hN⟩ (1 : Fin 3) * 256 ≤ (i 1).val ∧ (i 1).val < win0_1.index ⟨(i 0).val / 4, hN⟩ (1 : Fin 3) * 256 + 256
    omega
  | ⟨2, _⟩ =>
    show win0_1.index ⟨(i 0).val / 4, hN⟩ (2 : Fin 3) * 256 ≤ (i 2).val ∧ (i 2).val < win0_1.index ⟨(i 0).val / 4, hN⟩ (2 : Fin 3) * 256 + 256
    omega

/-- After the region the output array is the pooled merged argument. -/
theorem final (c : Dev nD) : (dats m 0 c).arrAt 1 cfg0.N = pool3 (V m c main_v0) :=
  (dats m 0 c).arrAt_eq_of_cover 1 (pool3 (V m c main_v0)) (fun t _ => flushed_eq m c t) cover

/-- The reshape after the region splits the leading axis again: the result is `pool4` of the argument. -/
theorem result_eq (c : Dev nD) :
    Pipeline.afterTail₀ cfgs (dats m) 0 (V0 m) [hostOps1] c main_v2 = pool4 (m ((c : Thread nD τ).loc main_arg0)) := by
  unfold Pipeline.afterTail₀
  show StableHlo.after hostOps1 _ (Proc.devRef .tc main_v2) = _
  after_results
  have hout : Pipeline.withArrays spec0 c (V0 m c) (fun w => (dats m 0 c).arrAt w cfg0.N) (Proc.devRef .tc main_v1)
      = pool3 (V m c main_v0) :=
    (Pipeline.withArrays_arr spec0 launch0.win.arr_inj c _ _ 1).trans (final m c)
  show shapeCast S16x64x256x256
      (Pipeline.withArrays spec0 c (V0 m c) (fun w => (dats m 0 c).arrAt w cfg0.N) (Proc.devRef .tc main_v1))
      shapeCasts_S1024x256x256_S16x64x256x256 = _
  rw [hout, V_main_v0]
  exact pool4_eq _ _ _

/-- The kernel's run: every weakly fair execution ends with the result array at `pool4` of the argument, the argument
    unchanged. -/
theorem run : θ_run defs (onTc (τ := τ) (main (F := Ideal))) ⟨m, fun _ => 0, ρ⟩ fun r => ∀ c : Dev nD,
      r.2.mem ((c : Thread nD τ).loc main_v2) = pool4 (m ((c : Thread nD τ).loc main_arg0))
      ∧ r.2.mem ((c : Thread nD τ).loc main_arg0) = m ((c : Thread nD τ).loc main_arg0) :=
  (θ_run defs _ _).mono (fun r h c =>
      ⟨((h c).2 main_v2 (Pipeline.mem_restRefs_of main_v2 (by decide) (by decide))).trans (result_eq m c),
       ((h c).2 main_arg0 (Pipeline.mem_restRefs_of main_arg0 (by decide) (by decide))).trans (W_main_arg0 m (dats m) c)⟩)
    (run_main m ρ)

end Cert.KernelPool

end
-- ==== Proof.RefPool.lean ====
/-
  The reference's windowed reduction is the pooling function.

  The reference folds `max` from minus infinity over the four positions of each 1 x 1 x 2 x 2 window, stride
  (1, 1, 2, 2), no padding: position `n` of the window at output index (image, channel, p, q) is the input entry
  (image, channel, 2 p + n / 2, 2 q + n % 2), always inside the array. Since `⊥` is the identity of `max` and
  `max` is associative and commutative, the fold is `pool4` of the input.
-/
import proofs.«419544_j5909875000105_4_alg».proof.Proof.Gen.ReferenceIdeal.Run
import proofs.«419544_j5909875000105_4_alg».proof.Proof.Gen.ReferenceIdeal.Read
import proofs.«419544_j5909875000105_4_alg».proof.Proof.PoolSpec

noncomputable section

namespace Cert.RefPool

open Idealize.ShloMosaic Idealize.ShloMosaic.ValueIdx Cert.PoolSpec

/-- The window's shape: one image, one channel, two rows, two columns. -/
abbrev Win : Shape := ⟨4, ![1, 1, 2, 2]⟩

/-- Position `n` of the window, in row-major order, is row `n / 2` and column `n % 2` of the one image and channel. -/
theorem win_pos : ∀ n : Fin Win.numel, (Win.rowMajor.symm n 0).val = 0 ∧ (Win.rowMajor.symm n 1).val = 0
    ∧ (Win.rowMajor.symm n 2).val = n.val / 2 ∧ (Win.rowMajor.symm n 3).val = n.val % 2 := by decide

/-- The window's entry at position `n`: the position is inside the input (no padding is ever read), and it is the input
    at (image, channel, 2 p + n / 2, 2 q + n % 2). -/
theorem entry_eq (x : (⟨4, ![16, 64, 512, 512]⟩ : Shape).Idx → EReal) (v0 : EReal) (n' : Fin 16) (c : Fin 64) (p q : Fin 256)
    (n : Fin Win.numel) (d e : Fin 2) (hd : n.val / 2 = d.val) (he : n.val % 2 = e.val) (hc : 4 = 4)
    [inst : Decidable (∀ a : Fin 4, (![0, 0, 0, 0] : Fin 4 → Nat) a ≤ ((ix4 n' c p q) (Fin.cast hc a)).val * (![1, 1, 2, 2] : Fin 4 → Nat) a + (Win.rowMajor.symm n a).val
      ∧ ((ix4 n' c p q) (Fin.cast hc a)).val * (![1, 1, 2, 2] : Fin 4 → Nat) a + (Win.rowMajor.symm n a).val - (![0, 0, 0, 0] : Fin 4 → Nat) a < (![16, 64, 512, 512] : Fin 4 → Nat) a)] :
    (if hin : ∀ a : Fin 4, (![0, 0, 0, 0] : Fin 4 → Nat) a ≤ ((ix4 n' c p q) (Fin.cast hc a)).val * (![1, 1, 2, 2] : Fin 4 → Nat) a + (Win.rowMajor.symm n a).val
      ∧ ((ix4 n' c p q) (Fin.cast hc a)).val * (![1, 1, 2, 2] : Fin 4 → Nat) a + (Win.rowMajor.symm n a).val - (![0, 0, 0, 0] : Fin 4 → Nat) a < (![16, 64, 512, 512] : Fin 4 → Nat) a
      then x (fun a => ⟨((ix4 n' c p q) (Fin.cast hc a)).val * (![1, 1, 2, 2] : Fin 4 → Nat) a + (Win.rowMajor.symm n a).val - (![0, 0, 0, 0] : Fin 4 → Nat) a, (hin a).2⟩) else v0)
      = x (ix4 n' c (dbl p d) (dbl q e)) := by
  obtain ⟨w0, w1, w2, w3⟩ := win_pos n
  split
  · next hin =>
    refine congrArg x (funext fun a => Fin.ext ?_)
    match a with
    | ⟨0, _⟩ => show n'.val * 1 + (Win.rowMajor.symm n 0).val - 0 = n'.val; omega
    | ⟨1, _⟩ => show c.val * 1 + (Win.rowMajor.symm n 1).val - 0 = c.val; omega
    | ⟨2, _⟩ => show p.val * 2 + (Win.rowMajor.symm n 2).val - 0 = 2 * p.val + d.val; omega
    | ⟨3, _⟩ => show q.val * 2 + (Win.rowMajor.symm n 3).val - 0 = 2 * q.val + e.val; omega
  · next hnin =>
    refine absurd (fun a => ?_) hnin
    match a with
    | ⟨0, _⟩ => show 0 ≤ n'.val * 1 + (Win.rowMajor.symm n 0).val ∧ n'.val * 1 + (Win.rowMajor.symm n 0).val - 0 < 16; omega
    | ⟨1, _⟩ => show 0 ≤ c.val * 1 + (Win.rowMajor.symm n 1).val ∧ c.val * 1 + (Win.rowMajor.symm n 1).val - 0 < 64; omega
    | ⟨2, _⟩ => show 0 ≤ p.val * 2 + (Win.rowMajor.symm n 2).val ∧ p.val * 2 + (Win.rowMajor.symm n 2).val - 0 < 512; omega
    | ⟨3, _⟩ => show 0 ≤ q.val * 2 + (Win.rowMajor.symm n 3).val ∧ q.val * 2 + (Win.rowMajor.symm n 3).val - 0 < 512; omega

/-- A 2 x 2, stride-2 windowed `max` from an initial value that is `⊥` is `pool4`. -/
theorem reduceWindow_pool (x : (⟨4, ![16, 64, 512, 512]⟩ : Shape).Idx → EReal) (v : (⟨0, ![]⟩ : Shape).Idx → EReal) (hv : ∀ i, v i = ⊥)
    (h : (⟨4, ![16, 64, 512, 512]⟩ : Shape).ReduceWindows (![1, 1, 2, 2] : Fin 4 → Nat) ![1, 1, 2, 2] ![0, 0, 0, 0] ![0, 0, 0, 0] ⟨4, ![16, 64, 256, 256]⟩)
    (hu : 0 < (⟨0, ![]⟩ : Shape).numel) :
    Host.reduceWindow (FloatOps.maximumf (F := Ideal) (φ := .f32)) ![1, 1, 2, 2] ![1, 1, 2, 2] ![0, 0, 0, 0] ![0, 0, 0, 0] x v h hu = pool4 x := by
  funext j
  obtain ⟨n', c, p, q, rfl⟩ : ∃ (n' : Fin 16) (c : Fin 64) (p q : Fin 256), j = ix4 n' c p q :=
    ⟨j 0, j 1, j 2, j 3, eq_ix4 j⟩
  unfold Host.reduceWindow
  dsimp only
  rw [show List.finRange (⟨4, ![1, 1, 2, 2]⟩ : Shape).numel = [⟨0, by decide⟩, ⟨1, by decide⟩, ⟨2, by decide⟩, ⟨3, by decide⟩] from by decide]
  simp only [List.foldl]
  rw [entry_eq x _ n' c p q ⟨0, by decide⟩ 0 0 rfl rfl, entry_eq x _ n' c p q ⟨1, by decide⟩ 0 1 rfl rfl,
    entry_eq x _ n' c p q ⟨2, by decide⟩ 1 0 rfl rfl, entry_eq x _ n' c p q ⟨3, by decide⟩ 1 1 rfl rfl, hv]
  simp only [Ideal.maximumf_def]
  rw [max_eq_right (bot_le : (⊥ : EReal) ≤ _)]
  unfold pool4
  ac_rfl

open Cert.ReferenceIdeal Cert.ReferenceIdeal.Read in
/-- The reference's result, as its run states it, is `pool4` of the argument. -/
theorem reference_eq (x : (⟨4, ![16, 64, 512, 512]⟩ : Shape).Idx → EReal) :
    Cert.ReferenceIdeal.Read.val_main_v1 (F := Ideal) x = pool4 x := by
  unfold Cert.ReferenceIdeal.Read.val_main_v1
  refine reduceWindow_pool x _ (fun i => ?_) _ _
  rw [val_main_v0_apply, val_main_cst_apply, Ideal.ofBits_def, ofBits_neg_inf]

end Cert.RefPool

end
-- ==== Proof.lean ====
/-
  Two-by-two max pooling with stride two over the two trailing axes of a [16, 64, 512, 512] array.

  The kernel merges the two leading axes, and each of its 256 grid points pools four consecutive [512, 512] slices: the
  rows in pairs, then (between two transpositions) the columns in pairs, each pair by a maximum taken from minus
  infinity; it then splits the leading axis again. The reference folds the maximum, from minus infinity, over each
  1 x 1 x 2 x 2 window with stride (1, 1, 2, 2). On the extended reals the maximum is associative and commutative with
  identity `⊥`, so both are the same function of the input, entry by entry: the maximum of the four entries of the window
  (`pool4`). No finiteness of the input is used.

  The three frames are the two kernels' frame runs and the reference's run with its result dropped; the idealization
  rewrote nothing, so `preserves` is trivial; `algebraic` sets the kernel's run (its result array is `pool4` of the
  argument) beside the reference's run (its windowed fold is `pool4` of the argument).
-/
import proofs.«419544_j5909875000105_4_alg».proof.Defs
import proofs.«419544_j5909875000105_4_alg».proof.Proof.Gen.Kernel
import proofs.«419544_j5909875000105_4_alg».proof.Proof.Gen.Kernel.Skeleton
import proofs.«419544_j5909875000105_4_alg».proof.Proof.Gen.Kernel.Launch
import proofs.«419544_j5909875000105_4_alg».proof.Proof.Gen.Kernel.Points
import proofs.«419544_j5909875000105_4_alg».proof.Proof.Gen.Kernel.Frame
import proofs.«419544_j5909875000105_4_alg».proof.Proof.Gen.KernelIdeal
import proofs.«419544_j5909875000105_4_alg».proof.Proof.Gen.KernelIdeal.Skeleton
import proofs.«419544_j5909875000105_4_alg».proof.Proof.Gen.KernelIdeal.Launch
import proofs.«419544_j5909875000105_4_alg».proof.Proof.Gen.KernelIdeal.Points
import proofs.«419544_j5909875000105_4_alg».proof.Proof.Gen.KernelIdeal.Frame
import proofs.«419544_j5909875000105_4_alg».proof.Proof.Gen.ReferenceIdeal
import proofs.«419544_j5909875000105_4_alg».proof.Proof.Gen.ReferenceIdeal.Run
import proofs.«419544_j5909875000105_4_alg».proof.Proof.Gen.ReferenceIdeal.Read
import proofs.«419544_j5909875000105_4_alg».proof.Proof.Gen.Pre_finite_inputs
import proofs.«419544_j5909875000105_4_alg».proof.Proof.KernelValue
import proofs.«419544_j5909875000105_4_alg».proof.Proof.RefPool
import Idealize.ShloMosaic.Adequacy
import Idealize.ShloMosaic.Init

noncomputable section

namespace Cert.Proof

open Idealize.ShloMosaic Idealize.SL.Sem

/-- The word-level kernel runs and leaves its argument unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its argument unchanged: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, the kernel's result array and the reference's both end at the maximum of each
    2 x 2 window of the argument. -/
theorem algebraic : Cert.algebraic_KernelIdeal_ReferenceIdeal := by
  intro m ρ m' ρ' _ hagree
  refine ⟨fun c => Cert.PoolSpec.pool4 (m ((c.tc : Thread Cert.KernelIdeal.nD Cert.KernelIdeal.τ).loc Cert.KernelIdeal.main_arg0)),
    Cert.KernelPool.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.RefPool.reference_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
